-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 10000#32
  let main_v13 : IVec S4096 32 := broadcastInDim S4096 ![] bcast_S_S4096 main_c_4
  let main_v14 : IVec S4096 1 := cmpi .slt main_arg1 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S10240x512 : Shape := ⟨2, ![10240, 512]⟩
abbrev S1024x512 : Shape := ⟨2, ![1024, 512]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 11
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S_, .i32⟩
  | .hbm, ⟨4, _⟩ => ⟨S_, .f32⟩
  | .hbm, ⟨5, _⟩ => ⟨S10240x512, .f32⟩
  | .hbm, ⟨6, _⟩ => ⟨S4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024, .i32⟩
  | .local _ .vmem, ⟨5, _⟩ => ⟨S1024, .i32⟩
  | .local _ .vmem, ⟨6, _⟩ => ⟨S1024, .f32⟩
  | .local _ .vmem, ⟨7, _⟩ => ⟨S1024, .f32⟩
  | .local _ .vmem, ⟨8, _⟩ => ⟨S1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v38 : BitVec 1 := Scalar.cmpi .eq arg1 c9_i32
  let v39 : BitVec 32 := Scalar.extui v38
  let c0_i32_12 : BitVec 32 := 0#32
  let v40 : BitVec 1 := Scalar.cmpi .ne v39 c0_i32_12
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S10000x512_S10240x512_02400_000 : S10000x512.Pads (![0, 0] : Fin 2 → Nat) ![240, 0] ![0, 0] S10240x512
  h_S_ : 0 < S_.numel
  inb_S1024_S1024_0 : ∀ a, (![0] : Fin 1 → Nat) a + S1024.size a ≤ S1024.size a
  h_S1024 : 0 < S1024.numel
  shapeCasts_S1024_S1024 : S1024.ShapeCasts S1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  reduces_S1024x512_S1024 : S1024x512.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  iota_S1x1024_d1_w32 : S1x1024.Iotas .tc 32 [1]
  reduces_S1024x1024_S1024 : S1024x1024.Reduces [1] S1024
  reducesTo_S4096_S_d0 : S4096.ReducesTo [0] S_
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S10240x512.size a
  hwx0_1 : ∀ i : grid0.Coords, EltTy.bits .f32 = 32 ∨ (Rect.block (s := S10240x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .i32 = 32 ∨ (Rect.block (s := S4096) S1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S4096.size a
  hwx0_3 : ∀ i : grid0.Coords, EltTy.bits .f32 = 32 ∨ (Rect.block (s := S4096) S1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S512x10000 : Shape := ⟨2, ![512, 10000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S512x10000, .f32⟩
  | .hbm, ⟨15, _⟩ => ⟨S4096x10000, .f32⟩
  | .hbm, ⟨16, _⟩ => ⟨S_, .f32⟩
  | .hbm, ⟨17, _⟩ => ⟨S4096x10000, .f32⟩
  | .hbm, ⟨18, _⟩ => ⟨S4096x10000, .f32⟩
  | .hbm, ⟨19, _⟩ => ⟨S4096x10000, .f32⟩
  | .hbm, ⟨20, _⟩ => ⟨S4096x1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S_, .i32⟩
  | .hbm, ⟨25, _⟩ => ⟨S4096x1, .i32⟩
  | .hbm, ⟨26, _⟩ => ⟨S4096x1, .i32⟩
  | .hbm, ⟨27, _⟩ => ⟨S4096x1, .i32⟩
  | .hbm, ⟨28, _⟩ => ⟨S4096x1x1, .i32⟩
  | .hbm, ⟨29, _⟩ => ⟨S1, .i32⟩
  | .hbm, ⟨30, _⟩ => ⟨S_, .i32⟩
  | .hbm, ⟨31, _⟩ => ⟨S4096x1x1, .i32⟩
  | .hbm, ⟨32, _⟩ => ⟨S4096x1x1, .i1⟩
  | .hbm, ⟨33, _⟩ => ⟨S1x1x1, .i32⟩
  | .hbm, ⟨34, _⟩ => ⟨S4096x1x1, .i32⟩
  | .hbm, ⟨35, _⟩ => ⟨S4096x1x1, .i1⟩
  | .hbm, ⟨36, _⟩ => ⟨S4096x1x1, .i1⟩
  | .hbm, ⟨37, _⟩ => ⟨S_, .i1⟩
  | .hbm, ⟨38, _⟩ => ⟨S4096x1, .i1⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_cst_2 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v16 : Ref sig .tc := ⟨.hbm, 50, rfl⟩
abbrev main_cst_4 : Ref sig .tc := ⟨.hbm, 51, rfl⟩
abbrev main_v17 : Ref sig .tc := ⟨.hbm, 52, rfl⟩
abbrev main_cst_5 : Ref sig .tc := ⟨.hbm, 53, rfl⟩
abbrev main_v18 : Ref sig .tc := ⟨.hbm, 54, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  transposes_S10000x512_S512x10000_1_0 : S10000x512.Transposes [1, 0] S512x10000
  bcast_S_S4096x10000 : S_.BroadcastsInDim S4096x10000 (![] : Fin 0 → Fin S4096x10000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  dot_S4096x512_S512x10000_S4096x10000_1_0_0_1_n_n_wf : DotDims.WF S4096x512 S512x10000 S4096x10000 [1] [0] [0] [1] [] []
  gather_S4096x10000_S4096x1x1_S4096x1_n_1_0_0_1_2_11_wf : GatherDims.WF S4096x10000 S4096x1x1 S4096x1 [] [1] [0] [1] [0] 2 ![1, 1]

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf
def gather_S4096x10000_S4096x1x1_S4096x1_n_1_0_0_1_2_11 : GatherDims S4096x10000 S4096x1x1 S4096x1 where
  offsetDims := []
  collapsedSliceDims := [1]
  operandBatchingDims := [0]
  startIndicesBatchingDims := [0]
  startIndexMap := [1]
  indexVectorDim := 2
  sliceSizes := ![1, 1]
  wf := gather_S4096x10000_S4096x1x1_S4096x1_n_1_0_0_1_2_11_wf

class Facts : Prop extends Facts₀ where

variable [Facts]
-- ==== Proof.Pieces.lean ====
/-
  What one run of the kernel body leaves behind, case by case, as the body's pure arithmetic.

  The body keeps a running vector acc (one entry per row of the x block) in a scratch buffer. At a point with column-block
  number 0 it first stores the zero vector there; at every point it replaces acc by the update u(acc) = acc + (row sums of
  the masked distance block); at a point with column-block number 9 it also stores clamp(acc) into the output block.
  So the scratch ends at u(0) in the first case and at u(acc) otherwise, and in the last case the output block holds
  the clamp of that same u(acc). Each statement reads the stores the run recorded back as one whole-block value.
-/
import proofs.«409011_j7232724926888_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

/-- A point that neither resets nor emits: the scratch ends at the update of what it held. -/
theorem sout_B (c : Dev nD) (i : grid0.Coords) (a2 : Memref sig .tc .vmem S1024x512 .f32) (h2 : a2.IsWhole)
    (a3 : Memref sig .tc .vmem S1024x512 .f32) (h3 : a3.IsWhole) (a4 : Memref sig .tc .vmem S1024 .i32) (h4 : a4.IsWhole)
    (a5 : Memref sig .tc .vmem S1024 .f32) (h5 : a5.IsWhole) (a6 : Memref sig .tc .vmem S1024 .f32) (h6 : a6.IsWhole)
    (hc0 : ¬cond0_0 i) (hc1 : ¬cond0_1 i)
    (x0 x1 : Vec F S1024x512 .f32) (x2 : Vec F S1024 .i32) (xs0 : Vec F S1024 .f32) :
    sout0_B_0 c i a2 h2 a3 h3 a4 h4 a5 h5 a6 h6 hc0 hc1 x0 x1 x2 xs0 = k0_pay3 i x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz1]
  simp only [View.readAt_eq_ld, h2.read_unread, h3.read_unread, h4.read_unread, h5.read_unread, h6.read_unread,
    View.ld_unit_zero (S := S1024x512) hz2, View.ld_unit_zero (S := S1024) hz1]

/-- A resetting point: the zero vector is stored first and read back, so the scratch ends at the update of zero. -/
theorem sout_A (c : Dev nD) (i : grid0.Coords) (a2 : Memref sig .tc .vmem S1024x512 .f32) (h2 : a2.IsWhole)
    (a3 : Memref sig .tc .vmem S1024x512 .f32) (h3 : a3.IsWhole) (a4 : Memref sig .tc .vmem S1024 .i32) (h4 : a4.IsWhole)
    (a5 : Memref sig .tc .vmem S1024 .f32) (h5 : a5.IsWhole) (a6 : Memref sig .tc .vmem S1024 .f32) (h6 : a6.IsWhole)
    (hc0 : cond0_0 i) (hc1 : ¬cond0_1 i)
    (x0 x1 : Vec F S1024x512 .f32) (x2 : Vec F S1024 .i32) :
    sout0_A_0 c i a2 h2 a3 h3 a4 h4 a5 h5 a6 h6 hc0 hc1 x0 x1 x2 = k0_pay3 i x0 x1 x2 (k0_pay2 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024) hz1, View.readCov_unit_zero (S := S1024) _ hz1]
  simp only [View.readAt_eq_ld, h2.read_unread, h3.read_unread, h4.read_unread, h5.read_unread, h6.read_unread,
    View.ld_unit_zero (S := S1024x512) hz2, View.ld_unit_zero (S := S1024) hz1]

/-- An emitting point: the scratch again ends at the update of what it held, -/
theorem sout_C (c : Dev nD) (i : grid0.Coords) (a2 : Memref sig .tc .vmem S1024x512 .f32) (h2 : a2.IsWhole)
    (a3 : Memref sig .tc .vmem S1024x512 .f32) (h3 : a3.IsWhole) (a4 : Memref sig .tc .vmem S1024 .i32) (h4 : a4.IsWhole)
    (a5 : Memref sig .tc .vmem S1024 .f32) (h5 : a5.IsWhole) (a6 : Memref sig .tc .vmem S1024 .f32) (h6 : a6.IsWhole)
    (hc0 : ¬cond0_0 i) (hc1 : cond0_1 i)
    (x0 x1 : Vec F S1024x512 .f32) (x2 : Vec F S1024 .i32) (xs0 : Vec F S1024 .f32) :
    sout0_C_0 c i a2 h2 a3 h3 a4 h4 a5 h5 a6 h6 hc0 hc1 x0 x1 x2 xs0 = k0_pay3 i x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz1]
  simp only [View.readAt_eq_ld, h2.read_unread, h3.read_unread, h4.read_unread, h5.read_unread, h6.read_unread,
    View.ld_unit_zero (S := S1024x512) hz2, View.ld_unit_zero (S := S1024) hz1]

/-- and the output block holds the clamp of that updated vector (the scratch is read back after its store). -/
theorem out_C (c : Dev nD) (i : grid0.Coords) (a2 : Memref sig .tc .vmem S1024x512 .f32) (h2 : a2.IsWhole)
    (a3 : Memref sig .tc .vmem S1024x512 .f32) (h3 : a3.IsWhole) (a4 : Memref sig .tc .vmem S1024 .i32) (h4 : a4.IsWhole)
    (a5 : Memref sig .tc .vmem S1024 .f32) (h5 : a5.IsWhole) (a6 : Memref sig .tc .vmem S1024 .f32) (h6 : a6.IsWhole)
    (hc0 : ¬cond0_0 i) (hc1 : cond0_1 i)
    (x0 x1 : Vec F S1024x512 .f32) (x2 : Vec F S1024 .i32) (xs0 : Vec F S1024 .f32) :
    out0_C_3 c i a2 h2 a3 h3 a4 h4 a5 h5 a6 h6 hc0 hc1 x0 x1 x2 xs0 = k0_pay1 (k0_pay3 i x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz1]
  simp only [View.readAt_eq_ld, h2.read_unread, h3.read_unread, h4.read_unread, h5.read_unread, h6.read_unread,
    View.ld_unit_zero (S := S1024x512) hz2, View.ld_unit_zero (S := S1024) hz1, View.readCov_unit_zero (S := S1024) _ hz1]

end Cert.KernelIdeal.Body

end
-- ==== Proof.Blocks.lean ====
/-
  The blocks the windows hand the body, read off the arrays, and the padded centres.
-/
import proofs.«409011_j7232724926888_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ)

abbrev xarr (c : Dev nD) : Vec F S4096x512 .f32 := V m c main_arg0
abbrev larr (c : Dev nD) : Vec F S4096 .i32 := V m c main_arg1
abbrev parr (c : Dev nD) : Vec F S10240x512 .f32 := V m c main_v0
abbrev xblk (c : Dev nD) (t : Fin cfg0.N) : Vec F S1024x512 .f32 := iblk m c 0 t
abbrev cblk (c : Dev nD) (t : Fin cfg0.N) : Vec F S1024x512 .f32 := iblk m c 1 t
abbrev lblk (c : Dev nD) (t : Fin cfg0.N) : Vec F S1024 .i32 := iblk m c 2 t

theorem tlt (t : Fin cfg0.N) : t.val < 40 := lt_of_lt_of_eq t.isLt N_0

def rowOf (t : Fin cfg0.N) (r : Fin 1024) : Fin 4096 :=
  ⟨1024 * (t.val / 10) + r.val, by have := tlt t; have := r.isLt; omega⟩
def colOf (t : Fin cfg0.N) (k : Fin 1024) : Fin 10240 :=
  ⟨1024 * (t.val % 10) + k.val, by have := k.isLt; omega⟩

theorem idx0 : ∀ t : Fin cfg0.N, win0_0.index t (0 : Fin 2) = t.val / 10 ∧ win0_0.index t (1 : Fin 2) = 0 :=
  (by decide +kernel : ∀ t : Fin grid0.N, win0_0.index t (0 : Fin 2) = t.val / 10 ∧ win0_0.index t (1 : Fin 2) = 0)
theorem idx1 : ∀ t : Fin cfg0.N, win0_1.index t (0 : Fin 2) = t.val % 10 ∧ win0_1.index t (1 : Fin 2) = 0 :=
  (by decide +kernel : ∀ t : Fin grid0.N, win0_1.index t (0 : Fin 2) = t.val % 10 ∧ win0_1.index t (1 : Fin 2) = 0)
theorem idx2 : ∀ t : Fin cfg0.N, win0_2.index t (0 : Fin 1) = t.val / 10 :=
  (by decide +kernel : ∀ t : Fin grid0.N, win0_2.index t (0 : Fin 1) = t.val / 10)
theorem idx3 : ∀ t : Fin cfg0.N, win0_3.index t (0 : Fin 1) = t.val / 10 :=
  (by decide +kernel : ∀ t : Fin grid0.N, win0_3.index t (0 : Fin 1) = t.val / 10)
theorem coord1 : ∀ t : Fin cfg0.N, ((grid0.coords t) 1).val = t.val % 10 :=
  (by decide +kernel : ∀ t : Fin grid0.N, ((grid0.coords t) 1).val = t.val % 10)

theorem xblk_apply (c : Dev nD) (t : Fin cfg0.N) (r : Fin 1024) (d : Fin 512) :
    xblk m c t (ix2 r d) = xarr m c (ix2 (rowOf t r) d) := by
  show iblk m c 0 t (ix2 r d) = V m c main_arg0 (ix2 (rowOf t r) d)
  unfold iblk
  rw [View.read_apply]
  show V m c main_arg0 (((cfg0.win 0).blk t).view.emb (ix2 r d)) = V m c main_arg0 (ix2 (rowOf t r) d)
  refine congrArg (V m c main_arg0) (funext fun a => Fin.ext ?_)
  match a with
  | ⟨0, _⟩ =>
    show win0_0.index t 0 * 1024 + 1 * r.val = 1024 * (t.val / 10) + r.val
    rw [(idx0 t).1]; omega
  | ⟨1, _⟩ =>
    show win0_0.index t 1 * 512 + 1 * d.val = d.val
    rw [(idx0 t).2]; omega

theorem cblk_apply (c : Dev nD) (t : Fin cfg0.N) (k : Fin 1024) (d : Fin 512) :
    cblk m c t (ix2 k d) = parr m c (ix2 (colOf t k) d) := by
  show iblk m c 1 t (ix2 k d) = V m c main_v0 (ix2 (colOf t k) d)
  unfold iblk
  rw [View.read_apply]
  show V m c main_v0 (((cfg0.win 1).blk t).view.emb (ix2 k d)) = V m c main_v0 (ix2 (colOf t k) d)
  refine congrArg (V m c main_v0) (funext fun a => Fin.ext ?_)
  match a with
  | ⟨0, _⟩ =>
    show win0_1.index t 0 * 1024 + 1 * k.val = 1024 * (t.val % 10) + k.val
    rw [(idx1 t).1]; omega
  | ⟨1, _⟩ =>
    show win0_1.index t 1 * 512 + 1 * d.val = d.val
    rw [(idx1 t).2]; omega

theorem lblk_apply (c : Dev nD) (t : Fin cfg0.N) (r : Fin 1024) :
    lblk m c t (ix1 r) = larr m c (ix1 (rowOf t r)) := by
  show iblk m c 2 t (ix1 r) = V m c main_arg1 (ix1 (rowOf t r))
  unfold iblk
  rw [View.read_apply]
  show V m c main_arg1 (((cfg0.win 2).blk t).view.emb (ix1 r)) = V m c main_arg1 (ix1 (rowOf t r))
  refine congrArg (V m c main_arg1) (funext fun a => Fin.ext ?_)
  match a with
  | ⟨0, _⟩ =>
    show win0_2.index t 0 * 1024 + 1 * r.val = 1024 * (t.val / 10) + r.val
    rw [idx2 t]; omega

/-- The second operand of the kernel is the centres padded with 240 zero rows: the first 10000 rows are the centres. -/
theorem parr_apply (c : Dev nD) (q : Fin 10000) (d : Fin 512) :
    parr m c (ix2 (⟨q.val, by have := q.isLt; omega⟩ : Fin 10240) d) = m ((c : Thread nD τ).loc main_arg2) (ix2 q d) := by
  have e : (V m c main_v0 : S10240x512.Idx → Elt F .f32)
      = pad S10240x512 ![0, 0] ![240, 0] ![0, 0] (m ((c : Thread nD τ).loc main_arg2))
          (sitofp (F := F) .f32 (constantI S_ 32 0#32)) pads_S10000x512_S10240x512_02400_000 h_S_ := by
    dsimp only [Gen.V, Gen.V0]
    simp only [Gen.hostOps0, Gen.hostOps0_1, List.flatten_cons, List.flatten_nil, List.append_nil, List.cons_append,
      List.nil_append]
    after_results
    rfl
  show (V m c main_v0 : S10240x512.Idx → Elt F .f32) (ix2 (⟨q.val, by have := q.isLt; omega⟩ : Fin 10240) d) = _
  rw [e]
  exact pad_apply_of_inside _ _ _ _ _ pads_S10000x512_S10240x512_02400_000 h_S_ _ (ix2 q d) (fun a => by
    match a with
    | ⟨0, _⟩ => show q.val = 0 + q.val * (0 + 1); omega
    | ⟨1, _⟩ => show d.val = 0 + d.val * (0 + 1); omega)

end Cert.KernelIdeal.Body

end
-- ==== Proof.Carry.lean ====
/-
  The running vector from one grid point to the next.

  The grid runs through 4 row blocks of x, and within each through the 10 column blocks of the padded centres. At the first
  column block the running vector restarts from the zero vector; at every other it continues from what the point before
  left; at the last column block the output block receives the clamp of the running vector.
-/
import proofs.«409011_j7232724926888_1_alg».proof.Proof.Pieces
import proofs.«409011_j7232724926888_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen

variable {F : FTy → Type} [FloatOps F]
variable (m : (ℓ : Loc nD τ sig) → Buf (Elt F) ℓ)

/-- The running vector after the point at position n. -/
abbrev accAt (c : Dev nD) (n : ℕ) (h : n < cfg0.N) : Vec F S1024 .f32 := (outsAt0 m c n h).2

/-- At a first column block the running vector is the update of the zero vector. -/
theorem acc_reset (c : Dev nD) (t : Fin cfg0.N) (h0 : t.val % 10 = 0) :
    accAt m c t.val t.isLt = k0_pay3 (grid0.coords t) (xblk m c t) (cblk m c t) (lblk m c t) (k0_pay2 (F := F)) := by
  have h1 : ¬t.val % 10 = 9 := by omega
  show (outsAt0 m c t.val t.isLt).2 = _
  rw [outsAt0_A m c t h0 h1]
  dsimp only
  exact sout_A (F := F) c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h))
    (iblk m c 0 t) (iblk m c 1 t) (iblk m c 2 t)

/-- At any other column block it is the update of what the point before left. -/
theorem acc_carry (c : Dev nD) (t : Fin cfg0.N) (h0 : ¬t.val % 10 = 0) :
    accAt m c t.val t.isLt = k0_pay3 (grid0.coords t) (xblk m c t) (cblk m c t) (lblk m c t)
      (accAt m c (t.val - 1) (Nat.lt_of_le_of_lt (Nat.sub_le _ _) t.isLt)) := by
  show (outsAt0 m c t.val t.isLt).2 = _
  by_cases h1 : t.val % 10 = 9
  · rw [outsAt0_C m c t h0 h1]
    dsimp only
    exact sout_C (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact sout_B (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- At a last column block the output block is the clamp of the running vector after that point. -/
theorem out_emit (c : Dev nD) (t : Fin cfg0.N) (h1 : t.val % 10 = 9) :
    (outsAt0 m c t.val t.isLt).1 = k0_pay1 (accAt m c t.val t.isLt) := by
  have h0 : ¬t.val % 10 = 0 := by omega
  show (outsAt0 m c t.val t.isLt).1 = k0_pay1 (outsAt0 m c t.val t.isLt).2
  rw [outsAt0_C m c t h0 h1]
  dsimp only
  rw [sout_C (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2]
  exact out_C (F := F) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2

end Cert.KernelIdeal.Body

end
-- ==== Proof.Spec.lean ====
/-
  The value both programs compute, as one function of the three argument arrays.

  For a row p of x with class label l(p), the squared distance to the centre of that class is taken in the expanded form
      d(p) = (|x_p|² + |c_l(p)|²) − 2 · (x_p · c_l(p)),
  every sum running over the 512 features; it is clamped to [lo, hi], the 4096 clamped distances are added to zero, and the
  total is divided by 4096. The three float words (2, lo, hi) and the divisor are the same words in both programs, so
  they stay uninterpreted here. Labels are read as naturals; a label below 10000 names a centre row.
-/
import Idealize.ShloMosaic.PureOps.Ideal
import Idealize.ShloMosaic.PureOps.Ideal.Laws
import Idealize.ShloMosaic.Lib.ValueIdx

noncomputable section

namespace Cert.CenterLoss

open Idealize.ShloMosaic Idealize.ShloMosaic.ValueIdx

/-- The features x: 4096 rows of 512. -/
abbrev SX : Shape := ⟨2, ![4096, 512]⟩
/-- One label per row. -/
abbrev SLab : Shape := ⟨1, ![4096]⟩
/-- The class centres: 10000 rows of 512. -/
abbrev SCen : Shape := ⟨2, ![10000, 512]⟩
/-- The scalar shape of the result. -/
abbrev S0 : Shape := ⟨0, ![]⟩

/-- The factor of the cross term, the word of 2.0. -/
abbrev two : EReal := Ideal.ofBits .f32 0x40000000#32
/-- The lower clamp, the word nearest 1e-12. -/
abbrev lo : EReal := Ideal.ofBits .f32 0x2B8CBCCC#32
/-- The upper clamp, the word nearest 1e12. -/
abbrev hi : EReal := Ideal.ofBits .f32 0x5368D4A5#32

/-- The expanded squared distance of two 512-vectors: (|u|² + |v|²) − 2 (u · v). -/
def sqdist (u v : Fin 512 → EReal) : EReal :=
  ((∑ d : Fin 512, u d * u d) + ∑ d : Fin 512, v d * v d) - two * ∑ d : Fin 512, u d * v d

/-- Row p of x against row q of the centres. -/
def dist (x : FVec Ideal SX .f32) (cen : FVec Ideal SCen .f32) (p : Fin 4096) (q : Fin 10000) : EReal :=
  sqdist (fun d => x (ix2 p d)) (fun d => cen (ix2 q d))

/-- The clamp to [lo, hi]: first from below, then from above. -/
def clamp (a : EReal) : EReal := min hi (max lo a)

/-- Every label names a centre row. -/
def InRange (lab : IVec SLab 32) : Prop := ∀ p : Fin 4096, (lab (ix1 p)).toNat < 10000

/-- The centre row a label names (reduced modulo 10000 so that it is total; under `InRange` it is the label). -/
def label (lab : IVec SLab 32) (p : Fin 4096) : Fin 10000 :=
  ⟨(lab (ix1 p)).toNat % 10000, Nat.mod_lt _ (by decide)⟩

theorem label_val (lab : IVec SLab 32) (h : InRange lab) (p : Fin 4096) : (label lab p).val = (lab (ix1 p)).toNat :=
  Nat.mod_eq_of_lt (h p)

/-- The clamped distance of row p to its own class centre. -/
def rowLoss (x : FVec Ideal SX .f32) (lab : IVec SLab 32) (cen : FVec Ideal SCen .f32) (p : Fin 4096) : EReal :=
  clamp (dist x cen p (label lab p))

/-- The mean of the 4096 clamped distances, as the programs take it: zero plus the sum, divided by the word of 4096. -/
def loss (x : FVec Ideal SX .f32) (lab : IVec SLab 32) (cen : FVec Ideal SCen .f32) : FVec Ideal S0 .f32 :=
  Host.divf (fun _ => Ideal.ofBits .f32 0x00000000#32 + ∑ p : Fin 4096, rowLoss x lab cen p)
    (constant S0 .f32 0x45800000#32)

end Cert.CenterLoss

end
-- ==== Proof.Payload.lean ====
/-
  The kernel body's arithmetic read at one row.

  At the extended reals the format changes are the identity, so one grid point's update of the accumulator is, at row r,
      acc(r) + Σ_k [ label(r) = 1024·j + k ] · ( (|x_r|² + |c_k|²) − 2 · (x_r · c_k) ),
  the sum running over the 1024 centre rows of the block and j the block's number; the clamp and the zero block are read
  the same way.
-/
import proofs.«409011_j7232724926888_1_alg».proof.Proof.Gen.KernelIdeal.Skeleton
import proofs.«409011_j7232724926888_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## Layout: a vector laid down the rows, and along the columns -/

/-- A vector recast as a one-column matrix and broadcast along the columns reads, at (p, q), the vector at p. -/
theorem colVecBroadcast_apply {α : Type} {R C : Nat} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (p : Fin R) (q : Fin C) :
    broadcastTo ⟨2, ![R, C]⟩ (shapeCast ⟨2, ![R, 1]⟩ v h1) h2 (ix2 p q) = v (ix1 p) := by
  rw [broadcastTo_apply (shapeCast ⟨2, ![R, 1]⟩ v h1) h2 (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])]
  exact shapeCast_apply v h1 (ix2 p (0 : Fin 1)) (ix1 p) (by
    rw [Shape.rowMajor_val_one, Shape.rowMajor_val_two]
    show p.val = p.val * 1 + 0
    omega)

/-- A vector recast as a one-row matrix and broadcast down the rows reads, at (p, q), the vector at q. -/
theorem rowVecBroadcast_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) :=
  (broadcastTo_1b_ab_apply _ h2 p q).trans (shapeCast_a_1a_apply v h1 0 q)

/-! ## A sum along the lanes -/

/-- The sum over axis 1 of a two-dimensional block, read at row r, is the sum of the row's entries. -/
theorem laneSum_apply {C : Nat} (src : FVec Ideal ⟨2, ![1024, C]⟩ .f32)
    (h : (⟨2, ![1024, C]⟩ : Shape).Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ k : Fin C, src (ix2 r k) := by
  refine (Ideal.multiReduction_add_single src 0x00000000#32 h hφ hacc (ix1 r)).trans ?_
  refine Finset.sum_congr rfl fun k _ => congrArg src ?_
  funext a
  refine Fin.ext ?_
  match a with
  | ⟨0, _⟩ => rfl
  | ⟨1, _⟩ => rfl

/-! ## The product of the two blocks, contracting the feature axis of both -/

/-- The left operand's row is the output's row. -/
theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left operand's column is the contraction coordinate. -/
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right operand's row is the output's column. -/
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right operand's column is the contraction coordinate. -/
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product into the zero accumulator, at (p, q), is the inner product of row p of the left block with row q of the
    right block. -/
theorem matmulNT_apply {φ₁ φ₂ : FTy} (l : FVec Ideal S1024x512 φ₁) (r : FVec Ideal S1024x512 φ₂) (p q : Fin 1024) :
    matmul (F := Ideal) dot_S1024x512_S1024x512_S1024x1024_1_1_0_0_n_n none l r (constant (F := Ideal) S1024x1024 .f32 0x00000000#32) (ix2 p q)
      = ∑ d : Fin 512, (l (ix2 p d) : EReal) * (r (ix2 q d) : EReal) := by
  refine (Ideal.matmul_constant_zero_apply dot_S1024x512_S1024x512_S1024x1024_1_1_0_0_n_n none l r (ix2 p q)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-! ## Words -/

/-- The column word: block number times 1024 plus the column, as words, is the word of that natural number. -/
theorem colWord (j k : Nat) : BitVec.ofNat 32 j * 1024#32 + BitVec.ofNat 32 k = BitVec.ofNat 32 (1024 * j + k) := by
  rw [Nat.mul_comm 1024 j, BitVec.ofNat_add, BitVec.ofNat_mul]

/-- A select on the equality of two words is the conditional on their equality. -/
theorem select_cmpi_eq {α : Type} (x y : BitVec 32) (a b : α) :
    Scalar.select (IntOp.cmpi .eq x y) a b = if x = y then a else b := by
  show (if BitVec.ofBool (x == y) = 1#1 then a else b) = _
  by_cases h : x = y
  · rw [if_pos h, if_pos (by subst h; simp)]
  · rw [if_neg h, if_neg (by rw [beq_eq_false_iff_ne.mpr h]; decide)]

/-! ## The three payloads at a row -/

/-- The zero block is zero at every row. -/
theorem pay2_apply (r : Fin 1024) : k0_pay2 (F := Ideal) (ix1 r) = 0 := by
  unfold k0_pay2
  rw [shapeCast_self]
  exact Ideal.ofBits_zero_f32

/-- The clamp block is the clamp of each row's value. -/
theorem pay1_apply (v : Vec Ideal S1024 .f32) (r : Fin 1024) :
    k0_pay1 (F := Ideal) v (ix1 r) = Cert.CenterLoss.clamp (v (ix1 r)) := rfl

/-- One grid point's update of the accumulator, at row r: the accumulator there plus, over the block's 1024 centre rows,
    the expanded squared distance of row r of x to the centre row whose number is the row's label. -/
theorem pay3_apply (i : grid0.Coords) (xb cb : Vec Ideal S1024x512 .f32) (lb : Vec Ideal S1024 .i32) (acc : Vec Ideal S1024 .f32) (r : Fin 1024) :
    k0_pay3 (F := Ideal) i xb cb lb acc (ix1 r)
      = acc (ix1 r) + ∑ k : Fin 1024, (if lb (ix1 r) = BitVec.ofNat 32 (1024 * (i 1).val + k.val) then Cert.CenterLoss.sqdist (fun d => xb (ix2 r d)) (fun d => cb (ix2 k d)) else 0) := by
  unfold k0_pay3
  simp only [shapeCast_self]
  refine (addf_apply _ _ _).trans (congrArg (acc (ix1 r) + ·) ?_)
  refine (laneSum_apply _ reduces_S1024x1024_S1024 _ _ r).trans (Finset.sum_congr rfl fun k _ => ?_)
  refine (select_cmpi_eq _ _ _ _).trans (if_congr (Eq.congr ?_ ?_) ?_ ?_)
  · exact colVecBroadcast_apply lb shapeCasts_S1024_S1024x1 broadcasts_S1024x1_S1024x1024 r k
  · refine (broadcastTo_1b_ab_apply _ broadcasts_S1x1024_S1024x1024 r k).trans ?_
    refine Eq.trans ?_ (colWord (i 1).val k.val)
    show IntOp.addi (Scalar.muli (BitVec.ofNat 32 (i 1).val) 1024#32) (iota .tc S1x1024 32 [1] iota_S1x1024_d1_w32 (ix2 (0 : Fin 1) k)) = _
    rw [iota_single_apply]
    rfl
  · unfold Cert.CenterLoss.sqdist
    refine congrArg₂ (· - ·) (congrArg₂ (· + ·) ?_ ?_) (congrArg₂ (· * ·) rfl ?_)
    · exact (colVecBroadcast_apply _ shapeCasts_S1024_S1024x1 broadcasts_S1024x1_S1024x1024 r k).trans
        (laneSum_apply _ reduces_S1024x512_S1024 _ _ r)
    · exact (rowVecBroadcast_apply _ shapeCasts_S1024_S1x1024 broadcasts_S1x1024_S1024x1024 r k).trans
        (laneSum_apply _ reduces_S1024x512_S1024 _ _ k)
    · exact matmulNT_apply _ _ r k
  · exact Ideal.ofBits_zero_f32

end Cert.KernelIdeal.Body

end
-- ==== Proof.OneHot.lean ====
/-
  A sum over the 1024 columns of one column block, masked by "the label equals this column's number", keeps at most one term:
  the label l lies in block j exactly when l / 1024 = j, and then the surviving column is l mod 1024.
-/
import Idealize.ShloMosaic.PureOps.Ideal
import Idealize.ShloMosaic.Lib.ValueIdx

noncomputable section

namespace Cert.CenterLoss

open Idealize.ShloMosaic

/-- A 32-bit word is the word of a small number exactly when that number is its value. -/
theorem word_eq_iff (w : BitVec 32) (n : ℕ) (hn : n < 2 ^ 32) : w = BitVec.ofNat 32 n ↔ w.toNat = n := by
  constructor
  · rintro rfl
    rw [BitVec.toNat_ofNat, Nat.mod_eq_of_lt hn]
  · intro h
    rw [← h, BitVec.ofNat_toNat, BitVec.setWidth_eq]

/-- The masked sum over the columns of block j: the term of column (l mod 1024) if the label l lies in block j, else zero. -/
theorem sum_onehot {M : Type} [AddCommMonoid M] (w : BitVec 32) (j : ℕ) (hj : j < 10) (f : Fin 1024 → M) :
    ∑ k : Fin 1024, (if w = BitVec.ofNat 32 (1024 * j + k.val) then f k else 0)
      = if w.toNat / 1024 = j then f ⟨w.toNat % 1024, Nat.mod_lt _ (by decide)⟩ else 0 := by
  have key : ∀ k : Fin 1024, w = BitVec.ofNat 32 (1024 * j + k.val) ↔ w.toNat = 1024 * j + k.val := fun k =>
    word_eq_iff w _ (by have := k.isLt; omega)
  by_cases h : w.toNat / 1024 = j
  · rw [if_pos h]
    have hk : ∀ k : Fin 1024, w = BitVec.ofNat 32 (1024 * j + k.val)
        ↔ k = (⟨w.toNat % 1024, Nat.mod_lt _ (by decide)⟩ : Fin 1024) := fun k => by
      rw [key k]
      constructor
      · intro e; apply Fin.ext; show k.val = w.toNat % 1024; have := k.isLt; omega
      · intro e; have e' : k.val = w.toNat % 1024 := congrArg Fin.val e; omega
    simp only [hk]
    rw [Finset.sum_ite_eq' Finset.univ _ f, if_pos (Finset.mem_univ _)]
  · rw [if_neg h]
    refine Finset.sum_eq_zero fun k _ => ?_
    rw [if_neg]
    rw [key k]
    intro e; apply h; have := k.isLt; omega

end Cert.CenterLoss

end
-- ==== Proof.Accum.lean ====
/-
  The running vector in closed form, and what the output blocks receive.

  Fix a row p of x with label l. Going through the ten column blocks of its row block, the masked row sum of block j is the
  distance of row p to padded-centre row l when l / 1024 = j and zero otherwise; so after column block j the running
  entry of row p is that distance if l / 1024 ≤ j, and still zero if not. After the last block (j = 9) every label below
  10240 has been met, and the output entry is the clamp of the distance to centre row l; for a label below 10000 that
  row of the padded centres is the centre itself.
-/
import proofs.«409011_j7232724926888_1_alg».proof.Proof.Carry
import proofs.«409011_j7232724926888_1_alg».proof.Proof.Payload
import proofs.«409011_j7232724926888_1_alg».proof.Proof.OneHot
import proofs.«409011_j7232724926888_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.CenterLoss

variable (m : (ℓ : Loc nD τ sig) → Buf (Elt Ideal) ℓ)

/-- The label word of row p. -/
abbrev lword (c : Dev nD) (p : Fin 4096) : BitVec 32 := larr m c (ix1 p)

/-- A row number of the padded centres from a natural. -/
def pcol (n : ℕ) : Fin 10240 := ⟨n % 10240, Nat.mod_lt _ (by decide)⟩

/-- The distance of row p of x to the padded-centre row its label names. -/
def own (c : Dev nD) (p : Fin 4096) : EReal :=
  sqdist (fun d => xarr m c (ix2 p d)) (fun d => parr m c (ix2 (pcol (lword m c p).toNat) d))

/-- One point's update of the running vector at row r: the label's own distance is added at the one column block that
    holds the label, and nothing at the others. -/
theorem update_apply (c : Dev nD) (t : Fin cfg0.N) (prev : Vec Ideal S1024 .f32) (r : Fin 1024) :
    k0_pay3 (F := Ideal) (grid0.coords t) (xblk m c t) (cblk m c t) (lblk m c t) prev (ix1 r)
      = prev (ix1 r) + (if (lword m c (rowOf t r)).toNat / 1024 = t.val % 10 then own m c (rowOf t r) else 0) := by
  rw [pay3_apply, coord1 t, lblk_apply]
  refine congrArg (prev (ix1 r) + ·) ?_
  simp only [xblk_apply, cblk_apply]
  rw [sum_onehot (lword m c (rowOf t r)) (t.val % 10) (Nat.mod_lt _ (by decide))
    (fun k => sqdist (fun d => xarr m c (ix2 (rowOf t r) d)) (fun d => parr m c (ix2 (colOf t k) d)))]
  by_cases h : (lword m c (rowOf t r)).toNat / 1024 = t.val % 10
  · rw [if_pos h, if_pos h]
    unfold own
    have e : colOf t ⟨(lword m c (rowOf t r)).toNat % 1024, Nat.mod_lt _ (by decide)⟩ = pcol (lword m c (rowOf t r)).toNat :=
      Fin.ext (by
        show 1024 * (t.val % 10) + (lword m c (rowOf t r)).toNat % 1024 = (lword m c (rowOf t r)).toNat % 10240
        have := tlt t
        omega)
    rw [e]
  · rw [if_neg h, if_neg h]

/-- THE CLOSED FORM of the running vector after the point at position n: at row r of the point's row block, the
    label's own distance once the label's column block has been passed, zero before. -/
theorem acc_eq (c : Dev nD) : ∀ (n : ℕ) (h : n < cfg0.N) (r : Fin 1024),
    accAt m c n h (ix1 r)
      = if (lword m c (rowOf ⟨n, h⟩ r)).toNat / 1024 ≤ n % 10 then own m c (rowOf ⟨n, h⟩ r) else 0
  | 0, h, r => by
    rw [acc_reset m c ⟨0, h⟩ rfl, update_apply, pay2_apply, zero_add]
    exact if_congr (by show _ = 0 % 10 ↔ _ ≤ 0 % 10; omega) rfl rfl
  | n + 1, h, r => by
    by_cases h0 : (n + 1) % 10 = 0
    · rw [acc_reset m c ⟨n + 1, h⟩ h0, update_apply, pay2_apply, zero_add]
      exact if_congr (by show _ = (n + 1) % 10 ↔ _ ≤ (n + 1) % 10; omega) rfl rfl
    · rw [acc_carry m c ⟨n + 1, h⟩ h0, update_apply]
      show accAt m c n _ (ix1 r) + _ = _
      rw [acc_eq c n (Nat.lt_of_succ_lt h) r]
      have hrow : rowOf ⟨n, Nat.lt_of_succ_lt h⟩ r = rowOf ⟨n + 1, h⟩ r :=
        Fin.ext (by show 1024 * (n / 10) + r.val = 1024 * ((n + 1) / 10) + r.val; omega)
      rw [hrow]
      show (if _ ≤ n % 10 then _ else _) + (if _ = (n + 1) % 10 then _ else _) = if _ ≤ (n + 1) % 10 then _ else _
      have e : (n + 1) % 10 = n % 10 + 1 := by omega
      rw [e]
      by_cases h1 : (lword m c (rowOf ⟨n + 1, h⟩ r)).toNat / 1024 ≤ n % 10
      · rw [if_pos h1, if_neg (by omega), add_zero, if_pos (by omega)]
      · by_cases h2 : (lword m c (rowOf ⟨n + 1, h⟩ r)).toNat / 1024 = n % 10 + 1
        · rw [if_neg h1, if_pos h2, zero_add, if_pos (by omega)]
        · rw [if_neg h1, if_neg h2, zero_add, if_neg (by omega)]

/-- For a label that names a centre row, the label's own distance is the specified distance of the row to its centre. -/
theorem own_eq (c : Dev nD) (hR : InRange (m ((c : Thread nD τ).loc main_arg1))) (p : Fin 4096) :
    own m c p = Cert.CenterLoss.dist (m ((c : Thread nD τ).loc main_arg0)) (m ((c : Thread nD τ).loc main_arg2)) p
      (label (m ((c : Thread nD τ).loc main_arg1)) p) := by
  have hl : lword m c p = m ((c : Thread nD τ).loc main_arg1) (ix1 p) := congrFun (V_main_arg1 m c) (ix1 p)
  have hlt : (lword m c p).toNat < 10000 := by rw [hl]; exact hR p
  unfold own Cert.CenterLoss.dist
  have hx : (fun d => xarr m c (ix2 p d)) = fun d => m ((c : Thread nD τ).loc main_arg0) (ix2 p d) :=
    funext fun d => congrFun (V_main_arg0 m c) (ix2 p d)
  have hc : (fun d => parr m c (ix2 (pcol (lword m c p).toNat) d))
      = fun d => m ((c : Thread nD τ).loc main_arg2) (ix2 (label (m ((c : Thread nD τ).loc main_arg1)) p) d) :=
    funext fun d => by
      have e1 : pcol (lword m c p).toNat = (⟨(label (m ((c : Thread nD τ).loc main_arg1)) p).val, by
          have := (label (m ((c : Thread nD τ).loc main_arg1)) p).isLt; omega⟩ : Fin 10240) :=
        Fin.ext (by
          show (lword m c p).toNat % 10240 = (label (m ((c : Thread nD τ).loc main_arg1)) p).val
          rw [label_val _ hR p, ← hl]; omega)
      rw [e1]
      exact parr_apply m c (label (m ((c : Thread nD τ).loc main_arg1)) p) d
  rw [hx, hc]

/-- WHAT AN EMITTING POINT PUTS IN THE OUTPUT BLOCK: at row r, the clamped distance of that row of x to its class centre. -/
theorem emitted (c : Dev nD) (hR : InRange (m ((c : Thread nD τ).loc main_arg1))) (t : Fin cfg0.N) (h9 : t.val % 10 = 9)
    (r : Fin 1024) :
    (outsAt0 m c t.val t.isLt).1 (ix1 r)
      = rowLoss (m ((c : Thread nD τ).loc main_arg0)) (m ((c : Thread nD τ).loc main_arg1)) (m ((c : Thread nD τ).loc main_arg2)) (rowOf t r) := by
  obtain ⟨n, hn⟩ := t
  have h9' : n % 10 = 9 := h9
  rw [out_emit m c ⟨n, hn⟩ h9, pay1_apply]
  show clamp (accAt m c n hn (ix1 r)) = _
  rw [acc_eq m c n hn r]
  have hl : lword m c (rowOf ⟨n, hn⟩ r) = m ((c : Thread nD τ).loc main_arg1) (ix1 (rowOf ⟨n, hn⟩ r)) :=
    congrFun (V_main_arg1 m c) (ix1 (rowOf ⟨n, hn⟩ r))
  have hlt : (lword m c (rowOf ⟨n, hn⟩ r)).toNat < 10000 := by rw [hl]; exact hR _
  rw [if_pos (by rw [h9']; omega), own_eq m c hR]
  rfl

end Cert.KernelIdeal.Body

end
-- ==== Proof.Result.lean ====
/-
  The kernel program's result: the output vector holds the clamped distances, and the lines after the kernel take
  their mean.

  The output vector of 4096 entries is written back in four blocks of 1024, one per row block of x, each at the last
  column block (positions 9, 19, 29, 39 of the grid). Entry p ends at the clamped distance of row p of x to its class
  centre. The host lines after the kernel add the 4096 entries to zero and divide by 4096.
-/
import proofs.«409011_j7232724926888_1_alg».proof.Proof.Accum
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.CenterLoss

variable (m : (ℓ : Loc nD τ sig) → Buf (Elt Ideal) ℓ) (ρ : Dev nD → PrngReg)

/-- A vector's index set is its coordinate range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The vector of the 4096 clamped distances. -/
abbrev rowLosses (c : Dev nD) : Buf (Elt Ideal) ((c : Thread nD τ).loc main_v1) := fun i =>
  rowLoss (m ((c : Thread nD τ).loc main_arg0)) (m ((c : Thread nD τ).loc main_arg1)) (m ((c : Thread nD τ).loc main_arg2)) (i 0)

/-- What an emitting point writes back is its block of that vector. -/
theorem flushed_eq (c : Dev nD) (hR : InRange (m ((c : Thread nD τ).loc main_arg1))) (t : Fin cfg0.N)
    (hf : (cfg0.win 3).flush t = true) :
    (dats m 0 c).flushed 3 t = ((cfg0.win 3).blk t).view.read (Elt Ideal) (rowLosses m c) := by
  have h9 : t.val % 10 = 9 := (flush0_3 t).mp hf
  show (cfg0.win 3).cut (grid0.coords t) ((dats m 0 c).after 3 t) = _
  rw [after0_3]
  refine funext fun (y : S1024.Idx) => ?_
  obtain ⟨r, rfl⟩ : ∃ r : Fin 1024, y = ix1 r := ⟨y 0, eq_ix1 y⟩
  rw [View.read_apply]
  show (outsAt0 m c t.val t.isLt).1 (ix1 r) = rowLosses m c (((cfg0.win 3).blk t).view.emb (ix1 r))
  rw [emitted m c hR t h9 r]
  show rowLoss _ _ _ (rowOf t r) = rowLoss _ _ _ ((((cfg0.win 3).blk t).view.emb (ix1 r)) 0)
  refine congrArg (rowLoss _ _ _) (Fin.ext ?_)
  show 1024 * (t.val / 10) + r.val = win0_3.index t 0 * 1024 + 1 * r.val
  rw [idx3 t]; omega

/-- An entry of the output vector lies in a point's block iff its number lies in the block's range. -/
theorem mem_blk (t : Fin cfg0.N) (i : S4096.Idx) :
    i ∈ ((cfg0.win 3).blk t).view.set
      ↔ ∀ a : Fin 1, win0_3.index t a * S1024.size a ≤ (i a).val ∧ (i a).val < win0_3.index t a * S1024.size a + S1024.size a := by
  show i ∈ ((View.whole main_v1).slice (win0_3.rect t)).set ↔ _
  rw [View.set_slice_whole, Rect.mem_set_unit]
  exact Iff.rfl

/-- Every entry lies in the block of the emitting point of its row block. -/
theorem cover (i : S4096.Idx) :
    ∃ t : Fin cfg0.N, (cfg0.win 3).flush t = true ∧ i ∈ ((cfg0.win 3).blk t).view.set := by
  have hi : (i 0).val < 4096 := (i 0).isLt
  have hN : cfg0.N = 40 := N_0
  refine ⟨⟨10 * ((i 0).val / 1024) + 9, by rw [hN]; omega⟩, (flush0_3 _).mpr (by show (10 * ((i 0).val / 1024) + 9) % 10 = 9; omega), ?_⟩
  rw [mem_blk]
  intro a
  match a with
  | ⟨0, _⟩ =>
    show win0_3.index _ 0 * 1024 ≤ (i 0).val ∧ (i 0).val < win0_3.index _ 0 * 1024 + 1024
    rw [idx3]
    show (10 * ((i 0).val / 1024) + 9) / 10 * 1024 ≤ (i 0).val ∧ (i 0).val < (10 * ((i 0).val / 1024) + 9) / 10 * 1024 + 1024
    omega

/-- The output vector after the run. -/
theorem final_out (c : Dev nD) (hR : InRange (m ((c : Thread nD τ).loc main_arg1))) :
    (dats m 0 c).arrAt 3 cfg0.N = rowLosses m c :=
  (dats m 0 c).arrAt_eq_of_cover 3 (rowLosses m c) (fun t hf => flushed_eq m c hR t hf) cover

/-- The lines after the kernel: zero plus the sum of the output vector, divided by 4096, which is the specified mean. -/
theorem tail_eq (c : Dev nD) (hR : InRange (m ((c : Thread nD τ).loc main_arg1))) :
    Pipeline.afterTail₀ cfgs (dats m) 0 (V0 m) [hostOps1] c main_v3
      = loss (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = rowLosses m c :=
    (Pipeline.withArrays_arr spec0 launch0.win.arr_inj c (V0 m c) (fun w => (dats m 0 c).arrAt w cfg0.N) 3).trans
      (final_out m c hR)
  rw [hw]
  unfold loss
  refine congrArg (fun v => Host.divf (F := Ideal) v (constant S_ .f32 0x45800000#32)) ?_
  funext j
  simp only [Host.reduceAdd, Ideal.hostReduceAdd_def]
  rw [Ideal.hostReduceAdd_total reducesTo_S4096_S_d0 (fun b => b.elim0)]
  exact congrArg (_ + ·) (sum_idx1 _)

/-- THE RUN of the idealized kernel program, read: its result is the specified mean, its arguments are unchanged. -/
theorem run (hR : ∀ c : Dev nD, InRange (m ((c : Thread nD τ).loc main_arg1))) :
    θ_run defs (onTc (τ := τ) (main (F := Ideal))) ⟨m, fun _ => 0, ρ⟩ fun r => ∀ c : Dev nD,
      r.2.mem ((c.tc : Thread nD τ).loc main_v3)
          = loss (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c (hR c)),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.KernelIdeal.Body

end
-- ==== Proof.RefValue.lean ====
/-
  The reference's result is the specified mean loss.

  The reference builds the whole 4096 × 10000 matrix of expanded squared distances
      D(p, q) = (|x_p|² + |c_q|²) − 2 · (x_p · c_q),
  takes from row p the entry in the column its label names, clamps it to [lo, hi], adds the 4096 clamped entries to
  zero and divides by 4096. When every label is below 10000 the column read in row p is the label itself: the label
  is not negative, so it is not shifted by 10000; it passes the range test, so the entry is kept and not replaced
  by the fill value; and the start index of the read, clamped to [0, 9999], is the label. Row by row the result is
  therefore the clamped distance of x_p to its own class centre, and the total is the specified loss.
-/
import proofs.«409011_j7232724926888_1_alg».proof.Proof.Gen.ReferenceIdeal.Run
import proofs.«409011_j7232724926888_1_alg».proof.Proof.Gen.ReferenceIdeal.Read
import proofs.«409011_j7232724926888_1_alg».proof.Proof.Spec
import Idealize.ShloMosaic.Lib.StableHlo.Predicate
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx
open Cert.CenterLoss (sqdist dist clamp InRange label label_val rowLoss loss two lo hi)

/-! ## The distance matrix at an index -/

/-- The row of x that entry (p, q) of the matrix of squared norms of x reads, feature k. -/
theorem idx_xsq (p : Fin 4096) (q : Fin 10000) (k : Fin 512) :
    idx_main_v1 (idx_main_v2 (idx_main_v6 (ix2 p q))) k = ix2 p k :=
  funext fun a => Fin.ext (by match a with | ⟨0, _⟩ => rfl | ⟨1, _⟩ => rfl)

/-- The row of the centres that entry (p, q) of the matrix of squared norms of the centres reads, feature k. -/
theorem idx_csq (p : Fin 4096) (q : Fin 10000) (k : Fin 512) :
    idx_main_v4 (idx_main_v5 (idx_main_v7 (ix2 p q))) k = ix2 q k :=
  funext fun a => Fin.ext (by match a with | ⟨0, _⟩ => rfl | ⟨1, _⟩ => rfl)

/-- The left operand of the product at (p, q), contraction coordinate k: x at (p, k). -/
theorem idx_dot_l (p : Fin 4096) (q : Fin 10000) (k : Fin 512) :
    lidx_main_v10 (ix2 p q) k = ix2 p k :=
  funext fun a => Fin.ext (by match a with | ⟨0, _⟩ => rfl | ⟨1, _⟩ => rfl)

/-- The right operand is the transposed centres at (k, q): the centres at (q, k). -/
theorem idx_dot_r (p : Fin 4096) (q : Fin 10000) (k : Fin 512) :
    idx_main_v9 (ridx_main_v10 (ix2 p q) k) = ix2 q k :=
  funext fun a => Fin.ext (by match a with | ⟨0, _⟩ => rfl | ⟨1, _⟩ => rfl)

/-- Entry (p, q) of the reference's distance matrix is the expanded squared distance of row p of x to centre q. -/
theorem distmat_apply (x : FVec Ideal Cert.CenterLoss.SX .f32) (cen : FVec Ideal Cert.CenterLoss.SCen .f32)
    (p : Fin 4096) (q : Fin 10000) :
    val_main_v13 (F := Ideal) x cen (ix2 p q) = dist x cen p q := by
  rw [val_main_v13_apply, val_main_v8_apply, val_main_v12_apply, val_main_v6_apply, val_main_v2_apply, val_main_v1_apply,
    val_main_v7_apply, val_main_v5_apply, val_main_v4_apply, val_main_v11_apply, val_main_v10_apply]
  simp only [val_main_v0_apply, val_main_v3_apply, val_main_v9_apply, val_main_cst_apply, val_main_cst_0_apply,
    val_main_cst_1_apply, idx_xsq, idx_csq, idx_dot_l, idx_dot_r]
  show (Ideal.ofBits .f32 0x00000000#32 + ∑ k : Fin 512, x (ix2 p k) * x (ix2 p k)
      + (Ideal.ofBits .f32 0x00000000#32 + ∑ k : Fin 512, cen (ix2 q k) * cen (ix2 q k)))
      - Ideal.ofBits .f32 0x40000000#32 * ∑ k : Fin 512, x (ix2 p k) * cen (ix2 q k) = _
  rw [Ideal.ofBits_zero_f32, zero_add, zero_add]
  rfl

/-! ## The label words -/

/-- The entry of the start-index array [4096, 1, 1] in row p reads, through the reshape, row p of the [4096, 1] array,
    which the broadcast took from the label of row p. -/
theorem idx_label (p : Fin 4096) (a b : Fin 1) :
    idx_main_v14 (idx_main_call0_v5 (ix3 p a b)) = ix1 p :=
  funext fun c => Fin.ext (by
    match c with
    | ⟨0, _⟩ =>
      show ((p.val * 1 + a.val) * 1 + b.val) / 1 = p.val
      have := a.isLt; have := b.isLt; omega)

/-- A label below 10000 is not negative as a signed word, so the shift by 10000 is not taken: the start index of
    row p is the label itself. -/
theorem start_word (lab : IVec Cert.CenterLoss.SLab 32) (h : InRange lab) (p : Fin 4096) (a b : Fin 1) :
    val_main_call0_v5 (F := Ideal) lab (ix3 p a b) = lab (ix1 p) := by
  have hw : (lab (ix1 p)).toNat < 10000 := h p
  rw [val_main_call0_v5_apply, val_main_call0_v4_apply, val_main_call0_v1_apply, val_main_v14_apply,
    val_main_call0_v0_apply, val_main_call0_c_apply, idx_label]
  have hn : ¬ IntOp.cmpi .slt (lab (ix1 p)) 0#32 = 1#1 := fun e => by
    have := (StableHlo.Predicate.slt_iff_toNat (a := lab (ix1 p)) (b := 0#32) (by omega) (by decide)).mp e
    exact Nat.not_lt_zero _ this
  rw [eq_zero_of_ne_one hn, select_zero]

/-- Such a start index passes the range test 0 ≤ · ≤ 9999. -/
theorem ok_elem (lab : IVec Cert.CenterLoss.SLab 32) (h : InRange lab) (i : S4096x1x1.Idx) :
    val_main_call0_v11 (F := Ideal) lab i = 1#1 := by
  obtain ⟨p, a, b, rfl⟩ : ∃ (p : Fin 4096) (a b : Fin 1), i = ix3 p a b := ⟨i 0, i 1, i 2, eq_ix3 i⟩
  have hw : (lab (ix1 p)).toNat < 10000 := h p
  rw [val_main_call0_v11_apply, val_main_call0_v7_apply, val_main_call0_v10_apply, start_word lab h,
    val_main_call0_v6_apply, val_main_call0_c_2_apply, val_main_call0_v9_apply, val_main_call0_v8_apply,
    val_main_call0_c_1_apply]
  rw [(StableHlo.Predicate.sge_iff_toNat (a := lab (ix1 p)) (b := 0#32) (by omega) (by decide)).mpr (Nat.zero_le _),
    (StableHlo.Predicate.sle_iff_toNat (a := lab (ix1 p)) (b := 9999#32) (by omega) (by decide)).mpr
      (by show (lab (ix1 p)).toNat ≤ 9999; omega)]
  rfl

/-- A fold by "and" from 1 over words that are all 1 is 1. -/
theorem foldl_andi_ones {ι : Type} (l : List ι) : l.foldl (fun r (_ : ι) => IntOp.andi r 1#1) 1#1 = 1#1 := by
  induction l with
  | nil => rfl
  | cons a l ih => exact ih

/-- The range test reduced by "and" over the unit axis is 1 in every row. -/
theorem ok_row (lab : IVec Cert.CenterLoss.SLab 32) (h : InRange lab) (j : S4096x1.Idx) :
    val_main_call0_v12 (F := Ideal) lab j = 1#1 := by
  unfold val_main_call0_v12
  rw [Host.reduce_eq_foldl,
    show (fun r i => IntOp.andi r (val_main_call0_v11 (F := Ideal) lab i)) = fun r _ => IntOp.andi r 1#1 from
      funext fun r => funext fun i => by rw [ok_elem lab h i]]
  exact foldl_andi_ones _

/-! ## The batched read of one column per row -/

/-- The read with batching axis 0 and collapsed, indexed axis 1, at result index (p, 0): row p of the operand, in the
    column its start index names, read signed and clamped to [0, 9999]. -/
theorem gather_row {α : Type} (X : S4096x10000.Idx → α) (idx : IVec S4096x1x1 32) (p : Fin 4096) :
    Host.gather gather_S4096x10000_S4096x1x1_S4096x1_n_1_0_0_1_2_11 X idx (ix2 p (0 : Fin 1))
      = X (ix2 p (⟨min (idx (ix3 p (0 : Fin 1) (0 : Fin 1))).toInt.toNat 9999, by omega⟩ : Fin 10000)) := by
  unfold Host.gather
  refine congrArg X (funext fun a => Fin.ext ?_)
  show gather_S4096x10000_S4096x1x1_S4096x1_n_1_0_0_1_2_11.start (ix2 p (0 : Fin 1)) idx a
      + gather_S4096x10000_S4096x1x1_S4096x1_n_1_0_0_1_2_11.batchCoord (ix2 p (0 : Fin 1)) a
      + gather_S4096x10000_S4096x1x1_S4096x1_n_1_0_0_1_2_11.offCoord (ix2 p (0 : Fin 1)) a = _
  match a with
  | ⟨0, h0⟩ =>
    have hm : (⟨0, h0⟩ : Fin S4096x10000.rank) ∈ gather_S4096x10000_S4096x1x1_S4096x1_n_1_0_0_1_2_11.operandBatchingDims :=
      List.mem_singleton.mpr rfl
    rw [GatherDims.start_batching _ _ _ _ hm,
      GatherDims.offCoord_eq_zero _ _ _ (fun hk => ((GatherDims.mem_sKept _ _).mp hk).2 hm)]
    simp only [Nat.zero_add, Nat.add_zero]
    unfold GatherDims.batchCoord
    rw [dif_pos hm]
    rfl
  | ⟨1, h1⟩ =>
    have hc : (⟨1, h1⟩ : Fin S4096x10000.rank) ∈ gather_S4096x10000_S4096x1x1_S4096x1_n_1_0_0_1_2_11.collapsedSliceDims :=
      List.mem_singleton.mpr rfl
    have hs : (⟨1, h1⟩ : Fin S4096x10000.rank) ∈ gather_S4096x10000_S4096x1x1_S4096x1_n_1_0_0_1_2_11.startIndexMap :=
      List.mem_singleton.mpr rfl
    rw [GatherDims.batchCoord_eq_zero _ _ _ (fun hm => absurd (congrArg Fin.val (List.mem_singleton.mp hm)) Nat.one_ne_zero),
      GatherDims.offCoord_eq_zero _ _ _ (fun hk => ((GatherDims.mem_sKept _ _).mp hk).1 hc)]
    simp only [Nat.add_zero]
    unfold GatherDims.start
    rw [dif_pos hs]
    have hsi : gather_S4096x10000_S4096x1x1_S4096x1_n_1_0_0_1_2_11.siIdx (ix2 p (0 : Fin 1))
        ⟨List.idxOf (⟨1, h1⟩ : Fin S4096x10000.rank) gather_S4096x10000_S4096x1x1_S4096x1_n_1_0_0_1_2_11.startIndexMap,
          List.idxOf_lt_length_iff.2 hs⟩ = ix3 p (0 : Fin 1) (0 : Fin 1) := by
      funext b; refine Fin.ext ?_
      match b with
      | ⟨0, _⟩ => rfl
      | ⟨1, _⟩ => rfl
      | ⟨2, _⟩ => rfl
    rw [hsi]
    rfl

/-! ## One row, and the total -/

/-- Row p of the clamped column the reference sums: the clamped distance of row p of x to its own class centre. -/
theorem row_eq (x : FVec Ideal Cert.CenterLoss.SX .f32) (lab : IVec Cert.CenterLoss.SLab 32)
    (cen : FVec Ideal Cert.CenterLoss.SCen .f32) (h : InRange lab) (p : Fin 4096) :
    val_main_v16 (F := Ideal) x lab cen (ix2 p (0 : Fin 1)) = rowLoss x lab cen p := by
  have hw : (lab (ix1 p)).toNat < 10000 := h p
  rw [val_main_v16_apply, val_main_call1_v2_apply, val_main_v15_apply, ok_row lab h, select_one,
    val_main_call1_v4_apply, val_main_call1_v3_apply, val_main_cst_3_apply,
    val_main_call1_v1_apply, val_main_call1_v0_apply, val_main_cst_2_apply]
  unfold val_main_call0_v13
  rw [gather_row]
  have hq : (⟨min (val_main_call0_v5 (F := Ideal) lab (ix3 p (0 : Fin 1) (0 : Fin 1))).toInt.toNat 9999, by omega⟩ : Fin 10000)
      = label lab p := Fin.ext (by
    show min (val_main_call0_v5 (F := Ideal) lab (ix3 p (0 : Fin 1) (0 : Fin 1))).toInt.toNat 9999 = (lab (ix1 p)).toNat % 10000
    rw [start_word lab h, StableHlo.Predicate.toInt_eq_toNat_of_lt (a := lab (ix1 p)) (by omega), Int.toNat_natCast]
    omega)
  rw [hq, distmat_apply]
  rfl

/-- THE REFERENCE'S RESULT: when every label names a centre row, the mean of the clamped distances. -/
theorem result_eq (x : (⟨S4096x512, .f32⟩ : BufTy).Contents (Elt Ideal)) (lab : (⟨S4096, .i32⟩ : BufTy).Contents (Elt Ideal))
    (cen : (⟨S10000x512, .f32⟩ : BufTy).Contents (Elt Ideal)) (h : Cert.CenterLoss.InRange lab) :
    Cert.ReferenceIdeal.Read.val_main_v18 (F := Ideal) x lab cen = Cert.CenterLoss.loss x lab cen := by
  have e : val_main_v17 (F := Ideal) x lab cen
      = fun _ => Ideal.ofBits .f32 0x00000000#32 + ∑ p : Fin 4096, rowLoss x lab cen p := by
    funext i
    rw [val_main_v17_apply, val_main_cst_4_apply, sum_idx2]
    refine congrArg (_ + ·) (Finset.sum_congr rfl fun p _ => ?_)
    rw [Fin.sum_univ_one]
    exact row_eq x lab cen h p
  unfold val_main_v18
  rw [e]
  rfl

end Cert.ReferenceIdeal.RefValue

end
-- ==== Proof.PreRange.lean ====
/-
  The printed precondition says, beside the finiteness of the two float arrays, that every label is at least 0 and below
  10000, both comparisons read signed. A 32-bit word that is at least 0 signed has its top bit clear, so it reads the same
  signed and unsigned; being below 10000 signed it is then below 10000 as a natural. So every label names a centre row.
-/
import proofs.«409011_j7232724926888_1_alg».proof.Pre_finite_inputs
import proofs.«409011_j7232724926888_1_alg».proof.Proof.Spec
import Idealize.ShloMosaic.Lib.ReduceAll
import Idealize.ShloMosaic.Lib.StableHlo.Predicate
import Idealize.ShloMosaic.Lib.ValueIdx

noncomputable section

namespace Cert.CenterLoss.PreRange

open Idealize.ShloMosaic Idealize.ShloMosaic.ValueIdx

/-- A word that is at least 0 and below n, both read signed, with n below 2³¹, is below n read as a natural. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt, StableHlo.Predicate.toInt_ofNat_small n hn] at h1
  have z : (0#32 : BitVec 32).toInt = 0 := by decide
  rw [z] at h0
  have hw := w.isLt
  rw [BitVec.toInt_eq_toNat_cond] at h0 h1
  split at h0 <;> omega

/-- The scalar shape has one index. -/
local instance : Subsingleton Cert.Pre_finite_inputs.S_.Idx := ⟨fun _ _ => funext fun d => d.elim0⟩

/-- The precondition gives the range of every label. -/
theorem inRange_of_pre {F : FTy → Type} [FloatOps F] [Cert.Pre_finite_inputs.Facts]
    (x : FVec F Cert.Pre_finite_inputs.S4096x512 .f32) (lab : IVec Cert.Pre_finite_inputs.S4096 32) (cen : FVec F Cert.Pre_finite_inputs.S10000x512 .f32)
    (h : Cert.Pre_finite_inputs.fn (F := F) x lab cen = fun _ => 1#1) : Cert.CenterLoss.InRange lab := by
  intro p
  have e := congrFun h ix0
  unfold Cert.Pre_finite_inputs.fn Cert.Pre_finite_inputs.fn_part1 at e
  simp only [andi, IntOp.andi_eq_one] at e
  obtain ⟨⟨-, h11⟩, h15⟩ := e
  have a := Host.reduce_andi_all _ _ _ _ _ h11 (ix1 p)
  have b := Host.reduce_andi_all _ _ _ _ _ h15 (ix1 p)
  exact toNat_lt_of_signed (lab (ix1 p)) 10000 (by decide) a b

end Cert.CenterLoss.PreRange

end
-- ==== Proof.lean ====
/-
  The certificate of the centre-loss kernel against its reference.

  Both programs compute, for every row p of x (4096 rows of 512 features) with class label l(p) among 10000 class
  centres, the squared distance  d(p) = (|x_p|² + |c_l(p)|²) − 2 (x_p · c_l(p)),  clamp it to [1e-12, 1e12] and return the
  mean of the 4096 clamped distances. The reference forms the whole 4096 × 10000 distance matrix and gathers column
  l(p) of row p. The kernel never forms it: it walks a grid of 4 row blocks by 10 column blocks of the centres (padded
  with zero rows to 10240), and in each block adds to a running vector the row sums of the distance block masked by
  "label = column number"; since a label below 10000 equals exactly one column number, the running entry of row p ends
  at d(p) (all other terms are exact zeros, and 0 + a = a on the extended reals, so no finiteness is used). The two
  matrix products, the row sums and the final mean are sums over the same finite index sets.

  The claim holds where every label lies in [0, 10000): outside, the reference wraps a negative label or returns its
  out-of-range fill while the kernel matches no column. The precondition states that range, and it is the only part of
  the precondition the proof uses.
-/
import proofs.«409011_j7232724926888_1_alg».proof.Defs
import proofs.«409011_j7232724926888_1_alg».proof.Proof.Gen.Kernel.Frame
import proofs.«409011_j7232724926888_1_alg».proof.Proof.Gen.KernelIdeal.Frame
import proofs.«409011_j7232724926888_1_alg».proof.Proof.Gen.ReferenceIdeal.Run
import proofs.«409011_j7232724926888_1_alg».proof.Proof.Gen.ReferenceIdeal.Read
import proofs.«409011_j7232724926888_1_alg».proof.Proof.Gen.Pre_finite_inputs
import proofs.«409011_j7232724926888_1_alg».proof.Proof.Result
import proofs.«409011_j7232724926888_1_alg».proof.Proof.RefValue
import proofs.«409011_j7232724926888_1_alg».proof.Proof.PreRange
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: it runs, and its arguments are never written. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- With every label in range, both programs end at the specified mean of the clamped distances. -/
theorem algebraic : Cert.algebraic_KernelIdeal_ReferenceIdeal := by
  intro m ρ m' ρ' hpre hagree
  have hR : ∀ c : Dev Cert.KernelIdeal.nD,
      Cert.CenterLoss.InRange (m ((c.tc : Thread Cert.KernelIdeal.nD Cert.KernelIdeal.τ).loc Cert.KernelIdeal.main_arg1)) :=
    fun c => Cert.CenterLoss.PreRange.inRange_of_pre (F := Ideal) _ _ _ (hpre c)
  refine ⟨_, Cert.KernelIdeal.Body.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq,
    Cert.ReferenceIdeal.RefValue.result_eq _ _ _ (by rw [(hagree c).2.1]; exact hR c),
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
